-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S800000x128 .f32) (main_arg2 : IVec S2x800000 32) (main_arg3 : FVec F S128x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩

abbrev nBuf : Space → Nat
  | .hbm => 36
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S1x128, .f32⟩
  | .hbm, ⟨25, _⟩ => ⟨S1x128, .f32⟩
  | .hbm, ⟨26, _⟩ => ⟨S800000x128, .f32⟩
  | .hbm, ⟨27, _⟩ => ⟨S1x800000, .i32⟩
  | .hbm, ⟨28, _⟩ => ⟨S800000, .i32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S1x128, .f32⟩
  | .hbm, ⟨34, _⟩ => ⟨S1x128, .f32⟩
  | .hbm, ⟨35, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  slices_S2x800000_S1x800000_0_0 : S2x800000.Slices ![0, 0] S1x800000
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S800000x128.size a
  hwx1_1 : ∀ i : grid1.Coords, EltTy.bits .f32 = 32 ∨ (Rect.block (s := S800000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S800000x128.size a
  hwx1_6 : ∀ i : grid1.Coords, EltTy.bits .f32 = 32 ∨ (Rect.block (s := S800000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v17) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S800000x128, .f32⟩
  | .hbm, ⟨14, _⟩ => ⟨S1x128, .f32⟩
  | .hbm, ⟨15, _⟩ => ⟨S800000x128, .f32⟩
  | .hbm, ⟨16, _⟩ => ⟨S800000x128, .f32⟩
  | .hbm, ⟨17, _⟩ => ⟨S_, .f32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S800000x128, .i1⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S1x128, .f32⟩
  | .hbm, ⟨36, _⟩ => ⟨S800000x128, .f32⟩
  | .hbm, ⟨37, _⟩ => ⟨S800000x128, .f32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x128, .f32⟩
  | .hbm, ⟨50, _⟩ => ⟨S1x800000, .i32⟩
  | .hbm, ⟨51, _⟩ => ⟨S800000, .i32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .i1⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The message-passing layer, one row at a time.

  Every stage of the layer acts on the rows of its array independently: entry (r, q) of a stage's result
  depends on row r of its inputs only. So the layer is written here over a single row of 128 extended reals,
  and the three stages are whole-array functions built from it:

    linear  X W                  row r  ↦  X[r,·] · W
    message E Xg W b W' b'       entry (r, q)  ↦  Xg[r,q] * (ssp (E[r,·] · W + b) · W' + b')[q]
    update  A X W b W' b'        entry (r, q)  ↦  X[r,q] + (ssp (A[r,·] · W + b) · W' + b')[q]

  where ssp y = max y 0 + log (1 + exp (-|y - 0|)) - log 2 is the shifted softplus, written with the two
  literal words the programs carry (the word of zero and the word of log 2, never evaluated).  The number of
  rows is a parameter: the same functions describe a 5000-row block and the whole array.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- An array of extended reals with `r` rows and `c` columns. -/
abbrev Mat (r c : Nat) : Type := (⟨2, ![r, c]⟩ : Shape).Idx → EReal

/-- The extended real the all-zero word denotes. -/
def zeroW : EReal := Ideal.ofBits .f32 0x00000000#32

/-- The extended real the word of `log 2` (rounded to single precision) denotes. -/
def ln2W : EReal := Ideal.ofBits .f32 0x3F317218#32

/-- Entry `q` of the product of the row `x` with the matrix `W`. -/
def rowDot (x : Fin 128 → EReal) (W : Mat 128 128) (q : Fin 128) : EReal :=
  ∑ k : Fin 128, x k * W (ix2 k q)

/-- The shifted softplus of one value: `max y 0 + log (1 + exp (-|y - 0|)) - log 2`, the absolute value written
    as `max d (-d)`. -/
def ssp (y : EReal) : EReal :=
  max y zeroW + Ideal.log1p (Ideal.exp (-(max (y - zeroW) (-(y - zeroW))))) - ln2W

/-- Two dense layers with a shifted softplus between them, on one row: entry `q` of
    `ssp (x · W + b) · W' + b'`. -/
def mlpRow (x : Fin 128 → EReal) (W : Mat 128 128) (b : Fin 128 → EReal) (W' : Mat 128 128) (b' : Fin 128 → EReal)
    (q : Fin 128) : EReal :=
  rowDot (fun k => ssp (rowDot x W k + b k)) W' q + b' q

/-- Every row of `X` times `W`. -/
def linear {n : Nat} (X : Mat n 128) (W : Mat 128 128) : Mat n 128 :=
  fun i => rowDot (fun k => X (ix2 (i 0) k)) W (i 1)

/-- The message on each edge: the gathered node row `Xg`, entry by entry, times the filter computed from the
    edge's own row of `E`. -/
def message {n : Nat} (E Xg : Mat n 128) (W : Mat 128 128) (b : Fin 128 → EReal) (W' : Mat 128 128) (b' : Fin 128 → EReal) :
    Mat n 128 :=
  fun i => Xg i * mlpRow (fun k => E (ix2 (i 0) k)) W b W' b' (i 1)

/-- The node update: the node's own row `X` plus the two-layer map of its aggregated row `A`. -/
def update {n : Nat} (A X : Mat n 128) (W : Mat 128 128) (b : Fin 128 → EReal) (W' : Mat 128 128) (b' : Fin 128 → EReal) :
    Mat n 128 :=
  fun i => X i + mlpRow (fun k => A (ix2 (i 0) k)) W b W' b' (i 1)

theorem linear_apply {n : Nat} (X : Mat n 128) (W : Mat 128 128) (p : Fin n) (q : Fin 128) :
    linear X W (ix2 p q) = rowDot (fun k => X (ix2 p k)) W q := rfl

theorem message_apply {n : Nat} (E Xg : Mat n 128) (W : Mat 128 128) (b : Fin 128 → EReal) (W' : Mat 128 128)
    (b' : Fin 128 → EReal) (p : Fin n) (q : Fin 128) :
    message E Xg W b W' b' (ix2 p q) = Xg (ix2 p q) * mlpRow (fun k => E (ix2 p k)) W b W' b' q := rfl

theorem update_apply {n : Nat} (A X : Mat n 128) (W : Mat 128 128) (b : Fin 128 → EReal) (W' : Mat 128 128)
    (b' : Fin 128 → EReal) (p : Fin n) (q : Fin 128) :
    update A X W b W' b' (ix2 p q) = X (ix2 p q) + mlpRow (fun k => A (ix2 p k)) W b W' b' q := rfl

/-- The two spellings of "minus the absolute value": subtracting from the zero word, and negating. -/
theorem zeroW_sub (a : EReal) : zeroW - a = -a := by
  unfold zeroW
  rw [Ideal.ofBits_zero_f32, sub_eq_add_neg, zero_add]

/-- No extended real differs from itself: the test both programs use for "not a number" never fires. -/
theorem cmp_ne_self (p : CmpFPredicate) (hp : p = .one ∨ p = .une) (a : EReal) : Ideal.cmp p a a = 0#1 := by
  rcases hp with rfl | rfl <;> simp [Ideal.cmp]

end Cert.Spec

end
-- ==== Proof.Rows.lean ====
/-
  What each kernel body computes, entry by entry.

  A body loads whole blocks (5000 rows of 128), computes one value with vector operations, and stores it.  Read
  at entry (p, q) of the block, every vector operation acts on entries: a product of a 5000 × 128 block with a
  128 × 128 matrix into a zero accumulator is the dot product of row p with column q; a change of float format
  is the identity on the extended reals; a 1 × 128 row broadcast down the block reads its entry q; the
  comparison of a value with itself for inequality is never true, so the selection keeps its second branch;
  and subtracting from the zero word is negation.  What is left is the row function of the specification
  applied to row p of the loaded blocks.
-/
import proofs.«167656_j24953759989865_1_alg».proof.Proof.Gen.KernelIdeal.Skeleton
import proofs.«167656_j24953759989865_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Spec
open scoped BigOperators

/-! ## The block product at an entry -/

theorem lhs_axis0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_axis0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_axis1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a 5000 × 128 block times a 128 × 128 matrix, accumulated from zero, is the dot product of
    the block's row p with the matrix's column q. -/
theorem matmul_entry {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = rowDot (fun k => x (ix2 p k)) w q := by
  simp only [matmul]
  rw [Ideal.matmul_constant_zero_apply, ← Equiv.sum_comp (contrEquiv1 dot_S5000x128_S128x128_S5000x128_1_0_0_1_n_n 128 rfl rfl).symm]
  unfold rowDot
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## Pointwise operations the library does not name at an index -/

theorem exp_entry {s : Shape} {φ : FTy} (x : FVec Ideal s φ) (i : s.Idx) : exp x i = Ideal.exp (x i) := rfl
theorem log1p_entry {s : Shape} {φ : FTy} (x : FVec Ideal s φ) (i : s.Idx) : log1p x i = Ideal.log1p (x i) := rfl
theorem absf_entry {s : Shape} {φ : FTy} (x : FVec Ideal s φ) (i : s.Idx) : absf x i = max (x i) (-(x i)) := rfl
theorem scalar_word (b : BitVec 32) : Scalar.ofBits (F := Ideal) .f32 b = Ideal.ofBits .f32 b := rfl

/-- The shifted softplus as the kernel bodies spell it, at one value: the self-comparison is false, so the selection
    keeps `max y 0 + log1p (exp (0 - |y - 0|))`, and `0 - a` is `-a`. -/
theorem ssp_kernel (y : EReal) :
    Scalar.select (Ideal.cmp .one (y - Ideal.ofBits .f32 0x00000000#32) (y - Ideal.ofBits .f32 0x00000000#32))
        (y + Ideal.ofBits .f32 0x00000000#32)
        (max y (Ideal.ofBits .f32 0x00000000#32)
          + Ideal.log1p (Ideal.exp (Ideal.ofBits .f32 0x00000000#32
              - max (y - Ideal.ofBits .f32 0x00000000#32) (-(y - Ideal.ofBits .f32 0x00000000#32)))))
      - Ideal.ofBits .f32 0x3F317218#32
      = ssp y := by
  rw [cmp_ne_self .one (.inl rfl), select_zero]
  unfold ssp
  rw [show Ideal.ofBits .f32 0x00000000#32 = zeroW from rfl, show Ideal.ofBits .f32 0x3F317218#32 = ln2W from rfl, zeroW_sub]

/-! ## The three bodies -/

/-- The node transform's stored block: row p of the node block times the weights. -/
theorem pay0_entry (v0 : Vec Ideal S5000x128 .f32) (v2 : Vec Ideal S128x128 .f32) (p : Fin 5000) (q : Fin 128) :
    k0_pay1 (F := Ideal) v0 v2 (ix2 p q) = rowDot (fun k => v0 (ix2 p k)) v2 q := by
  unfold k0_pay1
  exact matmul_entry _ _ p q

/-- The edge filter's stored block: the gathered node row, entry by entry, times the two-layer map of the edge's row. -/
theorem pay1_entry (v0 : Vec Ideal S5000x128 .f32) (v2 : Vec Ideal S128x128 .f32) (v5 : Vec Ideal S1x128 .f32)
    (v26 : Vec Ideal S128x128 .f32) (v29 : Vec Ideal S1x128 .f32) (v33 : Vec Ideal S5000x128 .f32) (p : Fin 5000) (q : Fin 128) :
    k1_pay1 (F := Ideal) v0 v2 v5 v26 v29 v33 (ix2 p q)
      = v33 (ix2 p q) * mlpRow (fun k => v0 (ix2 p k)) v2 (fun k => v5 (ix2 (0 : Fin 1) k)) v26
          (fun k => v29 (ix2 (0 : Fin 1) k)) q := by
  unfold k1_pay1
  simp only [mulf_apply, addf_apply, subf_apply, maximumf_apply, select_apply, cmpf_apply, broadcast_apply, truncf_apply,
    exp_entry, log1p_entry, absf_entry, scalar_word, shapeCast_self, broadcastTo_1b_ab_apply, matmul_entry,
    Ideal.cmpf_def, ssp_kernel]
  rfl

/-- The output stage's stored block: the node's own row plus the two-layer map of its aggregated row. -/
theorem pay2_entry (v0 : Vec Ideal S5000x128 .f32) (v3 : Vec Ideal S128x128 .f32) (v6 : Vec Ideal S1x128 .f32)
    (v27 : Vec Ideal S128x128 .f32) (v30 : Vec Ideal S1x128 .f32) (v34 : Vec Ideal S5000x128 .f32) (p : Fin 5000) (q : Fin 128) :
    k2_pay1 (F := Ideal) v0 v3 v6 v27 v30 v34 (ix2 p q)
      = v34 (ix2 p q) + mlpRow (fun k => v0 (ix2 p k)) v3 (fun k => v6 (ix2 (0 : Fin 1) k)) v27
          (fun k => v30 (ix2 (0 : Fin 1) k)) q := by
  unfold k2_pay1
  simp only [mulf_apply, addf_apply, subf_apply, maximumf_apply, select_apply, cmpf_apply, broadcast_apply, truncf_apply,
    exp_entry, log1p_entry, absf_entry, scalar_word, shapeCast_self, broadcastTo_1b_ab_apply, matmul_entry,
    Ideal.cmpf_def, ssp_kernel]
  rfl

end Cert.KernelIdeal.Rows

end
-- ==== Proof.NodeStage.lean ====
/-
  The node transform's output array.

  The region runs over 10 grid points; point t reads rows 5000 t … 5000 t + 4999 of the node array and the whole
  weight matrix, and writes the same rows of the output.  What point t writes back is therefore block t of ONE
  whole-array function of the arrays the region finds — every node row times the weights — and the ten blocks
  cover all 50000 rows, so the output array ends holding that function.
-/
import proofs.«167656_j24953759989865_1_alg».proof.Proof.Gen.KernelIdeal.Frame
import proofs.«167656_j24953759989865_1_alg».proof.Proof.Rows
import Idealize.ShloMosaic.Lib.Pipeline.Value

set_option maxRecDepth 16384

noncomputable section

namespace Cert.KernelIdeal.NodeStage

open Cert.KernelIdeal Cert.KernelIdeal.Gen Cert.KernelIdeal.Rows Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offs_zero : (![0, 0] : Fin 2 → Nat) = fun _ => 0 := funext fun a => by fin_cases a <;> rfl

/-- The printed index maps over the grid: the node window and the output window sit at block row t, column block 0;
    the weight window at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `linear` of the node array and the weights as the region finds them. -/
theorem flushed_eq (c : Dev nD) (t : Fin cfg0.N) :
    (dat0 V c).flushed 2 t
      = ((cfg0.win 2).blk t).view.read (Elt Ideal) (linear (n := 50000) (V c main_arg0) (V c main_arg3)) := by
  show (cfg0.win 2).cut (grid0.coords t) ((dat0 V c).after 2 t) = _
  rw [after0_2]
  unfold out0_2
  rw [View.canon_unit_zero offs_zero]
  simp only [View.ld_unit_zero (S := S5000x128) offs_zero, View.ld_unit_zero (S := S128x128) offs_zero]
  obtain ⟨e0, e1, e2, e3, e4, e5⟩ := index_maps t
  funext j
  obtain ⟨p, q, rfl⟩ : ∃ (p : Fin 5000) (q : Fin 128), j = ix2 p q := ⟨j 0, j 1, eq_ix2 j⟩
  have ht : t.val < 10 := lt_of_lt_of_eq t.isLt N_0
  have hr : t.val * 5000 + p.val < 50000 := by have := p.isLt; omega
  -- entry (p, q) of block t is entry (5000 t + p, q) of the output array …
  have h2 : ((cfg0.win 2).blk t).view.emb (ix2 p q) = ix2 (⟨t.val * 5000 + p.val, hr⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  -- … row p of the node block is row 5000 t + p of the node array …
  have h0 : ∀ k : Fin 128, ((cfg0.win 0).blk t).view.emb (ix2 p k) = ix2 (⟨t.val * 5000 + p.val, hr⟩ : Fin 50000) k := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  -- … and the weight block is the whole weight matrix.
  have h1 : ∀ y : S128x128.Idx, ((cfg0.win 1).blk t).view.emb y = y := fun y => by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  show k0_pay1 (F := Ideal) (iblk0 V c 0 t) (iblk0 V c 1 t) (ix2 p q)
      = linear (n := 50000) (V c main_arg0) (V c main_arg3) (((cfg0.win 2).blk t).view.emb (ix2 p q))
  rw [h2, linear_apply]
  refine (pay0_entry _ _ p q).trans ?_
  show rowDot (fun k => V c main_arg0 (((cfg0.win 0).blk t).view.emb (ix2 p k)))
      (fun y => V c main_arg3 (((cfg0.win 1).blk t).view.emb y)) q = _
  simp only [h0, h1]

/-- An index of the output array lies in point t's block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every index of the output array is in some point's block: row r is in block r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  refine ⟨⟨(i 0).val / 5000, hN⟩, flush0_2 _, ?_⟩
  rw [mem_blk]
  obtain ⟨-, -, -, -, e4, e5⟩ := index_maps ⟨(i 0).val / 5000, hN⟩
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; rw [e5]; omega

/-- THE OUTPUT ARRAY after the region: every node row times the weights, of the arrays the region finds. -/
theorem array_eq (c : Dev nD) :
    (dat0 V c).arrAt 2 cfg0.N = linear (n := 50000) (V c main_arg0) (V c main_arg3) :=
  (dat0 V c).arrAt_eq_of_cover 2 _ (fun t _ => flushed_eq V c t) covered

end Cert.KernelIdeal.NodeStage

end
-- ==== Proof.EdgeStage.lean ====
/-
  The edge filter's output array.

  The region runs over 160 grid points; point t reads rows 5000 t … 5000 t + 4999 of the edge array and of the
  gathered node rows, the two weight matrices and the two bias rows whole, and writes the same rows of the
  message array.  What point t writes back is block t of ONE whole-array function of the arrays the region
  finds — on each edge the gathered node row times the two-layer filter of the edge's own row — and the 160
  blocks cover all 800000 rows, so the message array ends holding that function.
-/
import proofs.«167656_j24953759989865_1_alg».proof.Proof.Gen.KernelIdeal.Frame
import proofs.«167656_j24953759989865_1_alg».proof.Proof.Rows
import Idealize.ShloMosaic.Lib.Pipeline.Value

set_option maxRecDepth 16384

noncomputable section

namespace Cert.KernelIdeal.EdgeStage

open Cert.KernelIdeal Cert.KernelIdeal.Gen Cert.KernelIdeal.Rows Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offs_zero : (![0, 0] : Fin 2 → Nat) = fun _ => 0 := funext fun a => by fin_cases a <;> rfl

/-- An array of the region, at its literal type (so that its entries are extended reals to the arithmetic). -/
abbrev asMat {r s : Nat} (X : Mat r s) : Mat r s := X

/-- The printed index maps over the grid: the edge window, the gathered-row window and the output window sit at
    block row t; the two weight windows and the two bias windows at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The whole-array function the region computes, of the arrays it finds: the biases are read off their 1 × 128 rows. -/
abbrev messages (c : Dev nD) : Mat 800000 128 :=
  message (n := 800000) (V c main_arg1) (V c main_v9) (V c main_arg4) (fun k => V c main_v10 (ix2 (0 : Fin 1) k))
    (V c main_arg6) (fun k => V c main_v11 (ix2 (0 : Fin 1) k))

/-- What point t writes back is block t of `messages`. -/
theorem flushed_eq (c : Dev nD) (t : Fin cfg1.N) :
    (dat1 V c).flushed 6 t = ((cfg1.win 6).blk t).view.read (Elt Ideal) (messages V c) := by
  show (cfg1.win 6).cut (grid1.coords t) ((dat1 V c).after 6 t) = _
  rw [after1_6]
  unfold out1_6
  rw [View.canon_unit_zero offs_zero]
  simp only [View.ld_unit_zero (S := S5000x128) offs_zero, View.ld_unit_zero (S := S128x128) offs_zero,
    View.ld_unit_zero (S := S1x128) offs_zero]
  obtain ⟨e00, e01, e10, e11, e20, e21, e30, e31, e40, e41, e50, e51, e60, e61⟩ := index_maps t
  funext j
  obtain ⟨p, q, rfl⟩ : ∃ (p : Fin 5000) (q : Fin 128), j = ix2 p q := ⟨j 0, j 1, eq_ix2 j⟩
  have ht : t.val < 160 := lt_of_lt_of_eq t.isLt N_1
  have hr : t.val * 5000 + p.val < 800000 := by have := p.isLt; omega
  -- entry (p, q) of block t is entry (5000 t + p, q) of the message array and of the gathered rows …
  have h6 : ((cfg1.win 6).blk t).view.emb (ix2 p q) = ix2 (⟨t.val * 5000 + p.val, hr⟩ : Fin 800000) q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  have h1 : ((cfg1.win 1).blk t).view.emb (ix2 p q) = ix2 (⟨t.val * 5000 + p.val, hr⟩ : Fin 800000) q := by
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  -- … row p of the edge block is row 5000 t + p of the edge array …
  have h0 : ∀ k : Fin 128, ((cfg1.win 0).blk t).view.emb (ix2 p k) = ix2 (⟨t.val * 5000 + p.val, hr⟩ : Fin 800000) k := fun k => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  -- … and the weight and bias blocks are the whole weight matrices and bias rows.
  have h2 : ∀ y : S128x128.Idx, ((cfg1.win 2).blk t).view.emb y = y := fun y => by
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : ∀ y : S1x128.Idx, ((cfg1.win 3).blk t).view.emb y = y := fun y => by
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  have h4 : ∀ y : S128x128.Idx, ((cfg1.win 4).blk t).view.emb y = y := fun y => by
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  have h5 : ∀ y : S1x128.Idx, ((cfg1.win 5).blk t).view.emb y = y := fun y => by
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  show k1_pay1 (F := Ideal) (iblk1 V c 0 t) (iblk1 V c 2 t) (iblk1 V c 3 t) (iblk1 V c 4 t) (iblk1 V c 5 t) (iblk1 V c 1 t) (ix2 p q)
      = messages V c (((cfg1.win 6).blk t).view.emb (ix2 p q))
  rw [h6]
  unfold messages
  rw [message_apply]
  refine (pay1_entry (iblk1 V c 0 t) (iblk1 V c 2 t) (iblk1 V c 3 t) (iblk1 V c 4 t) (iblk1 V c 5 t) (iblk1 V c 1 t) p q).trans ?_
  show asMat (r := 800000) (s := 128) (V c main_v9) (((cfg1.win 1).blk t).view.emb (ix2 p q))
      * mlpRow (fun k => V c main_arg1 (((cfg1.win 0).blk t).view.emb (ix2 p k)))
          (fun y => V c main_arg4 (((cfg1.win 2).blk t).view.emb y))
          (fun k => V c main_v10 (((cfg1.win 3).blk t).view.emb (ix2 (0 : Fin 1) k)))
          (fun y => V c main_arg6 (((cfg1.win 4).blk t).view.emb y))
          (fun k => V c main_v11 (((cfg1.win 5).blk t).view.emb (ix2 (0 : Fin 1) k))) q = _
  simp only [h0, h1, h2, h3, h4, h5]

/-- An index of the message array lies in point t's block iff each coordinate is in the block's range. -/
theorem mem_blk (t : Fin cfg1.N) (i : S800000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v12).slice (win1_6.rect t)).set ↔ _
  rw [View.set_slice_whole, Rect.mem_set_unit]
  exact Iff.rfl

/-- Every index of the message array is in some point's block: row r is in block r / 5000. -/
theorem covered (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hN : (i 0).val / 5000 < cfg1.N := lt_of_lt_of_eq (by omega : (i 0).val / 5000 < 160) N_1.symm
  refine ⟨⟨(i 0).val / 5000, hN⟩, flush1_6 _, ?_⟩
  rw [mem_blk]
  obtain ⟨-, -, -, -, -, -, -, -, -, -, -, -, e60, e61⟩ := index_maps ⟨(i 0).val / 5000, hN⟩
  intro a
  match a with
  | ⟨0, _⟩ => show win1_6.index ⟨(i 0).val / 5000, hN⟩ (0 : Fin 2) * 5000 ≤ (i 0).val ∧ (i 0).val < win1_6.index ⟨(i 0).val / 5000, hN⟩ (0 : Fin 2) * 5000 + 5000; rw [e60]; show (i 0).val / 5000 * 5000 ≤ (i 0).val ∧ (i 0).val < (i 0).val / 5000 * 5000 + 5000; omega
  | ⟨1, _⟩ => show win1_6.index ⟨(i 0).val / 5000, hN⟩ (1 : Fin 2) * 128 ≤ (i 1).val ∧ (i 1).val < win1_6.index ⟨(i 0).val / 5000, hN⟩ (1 : Fin 2) * 128 + 128; rw [e61]; omega

/-- THE MESSAGE ARRAY after the region: `messages` of the arrays the region finds. -/
theorem array_eq (c : Dev nD) : (dat1 V c).arrAt 6 cfg1.N = messages V c :=
  (dat1 V c).arrAt_eq_of_cover 6 _ (fun t _ => flushed_eq V c t) covered

end Cert.KernelIdeal.EdgeStage

end
-- ==== Proof.OutStage.lean ====
/-
  The output stage's array.

  The region runs over 10 grid points; point t reads rows 5000 t … 5000 t + 4999 of the aggregated messages and
  of the node array, the two weight matrices and the two bias rows whole, and writes the same rows of the
  result.  What point t writes back is block t of ONE whole-array function of the arrays the region finds — each
  node's own row plus the two-layer map of its aggregated row — and the ten blocks cover all 50000 rows, so the
  result array ends holding that function.
-/
import proofs.«167656_j24953759989865_1_alg».proof.Proof.Gen.KernelIdeal.Frame
import proofs.«167656_j24953759989865_1_alg».proof.Proof.Rows
import Idealize.ShloMosaic.Lib.Pipeline.Value

set_option maxRecDepth 16384

noncomputable section

namespace Cert.KernelIdeal.OutStage

open Cert.KernelIdeal Cert.KernelIdeal.Gen Cert.KernelIdeal.Rows Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offs_zero : (![0, 0] : Fin 2 → Nat) = fun _ => 0 := funext fun a => by fin_cases a <;> rfl

/-- An array of the region, at its literal type (so that its entries are extended reals to the arithmetic). -/
abbrev asMat {r s : Nat} (X : Mat r s) : Mat r s := X

/-- The printed index maps over the grid: the aggregate window, the node window and the output window sit at block
    row t; the two weight windows and the two bias windows at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The whole-array function the region computes, of the arrays it finds: the biases are read off their 1 × 128 rows. -/
abbrev updated (c : Dev nD) : Mat 50000 128 :=
  update (n := 50000) (V c main_v17) (V c main_arg0) (V c main_arg8) (fun k => V c main_v18 (ix2 (0 : Fin 1) k))
    (V c main_arg10) (fun k => V c main_v19 (ix2 (0 : Fin 1) k))

/-- What point t writes back is block t of `updated`. -/
theorem flushed_eq (c : Dev nD) (t : Fin cfg2.N) :
    (dat2 V c).flushed 6 t = ((cfg2.win 6).blk t).view.read (Elt Ideal) (updated V c) := by
  show (cfg2.win 6).cut (grid2.coords t) ((dat2 V c).after 6 t) = _
  rw [after2_6]
  unfold out2_6
  rw [View.canon_unit_zero offs_zero]
  simp only [View.ld_unit_zero (S := S5000x128) offs_zero, View.ld_unit_zero (S := S128x128) offs_zero,
    View.ld_unit_zero (S := S1x128) offs_zero]
  obtain ⟨e00, e01, e10, e11, e20, e21, e30, e31, e40, e41, e50, e51, e60, e61⟩ := index_maps t
  funext j
  obtain ⟨p, q, rfl⟩ : ∃ (p : Fin 5000) (q : Fin 128), j = ix2 p q := ⟨j 0, j 1, eq_ix2 j⟩
  have ht : t.val < 10 := lt_of_lt_of_eq t.isLt N_2
  have hr : t.val * 5000 + p.val < 50000 := by have := p.isLt; omega
  -- entry (p, q) of block t is entry (5000 t + p, q) of the result array and of the node array …
  have h6 : ((cfg2.win 6).blk t).view.emb (ix2 p q) = ix2 (⟨t.val * 5000 + p.val, hr⟩ : Fin 50000) q := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  have h1 : ((cfg2.win 1).blk t).view.emb (ix2 p q) = ix2 (⟨t.val * 5000 + p.val, hr⟩ : Fin 50000) q := by
    funext a; apply Fin.ext
    match a with
    | ⟨0, _⟩ => show win2_1.index t (0 : Fin 2) * 5000 + 1 * p.val = t.val * 5000 + p.val; omega
    | ⟨1, _⟩ => show win2_1.index t (1 : Fin 2) * 128 + 1 * q.val = q.val; omega
  -- … row p of the aggregate block is row 5000 t + p of the aggregated messages …
  have h0 : ∀ k : Fin 128, ((cfg2.win 0).blk t).view.emb (ix2 p k) = ix2 (⟨t.val * 5000 + p.val, hr⟩ : Fin 50000) k := fun k => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  -- … and the weight and bias blocks are the whole weight matrices and bias rows.
  have h2 : ∀ y : S128x128.Idx, ((cfg2.win 2).blk t).view.emb y = y := fun y => by
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  have h3 : ∀ y : S1x128.Idx, ((cfg2.win 3).blk t).view.emb y = y := fun y => by
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  have h4 : ∀ y : S128x128.Idx, ((cfg2.win 4).blk t).view.emb y = y := fun y => by
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  have h5 : ∀ y : S1x128.Idx, ((cfg2.win 5).blk t).view.emb y = y := fun y => by
    funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega
  show k2_pay1 (F := Ideal) (iblk2 V c 0 t) (iblk2 V c 2 t) (iblk2 V c 3 t) (iblk2 V c 4 t) (iblk2 V c 5 t) (iblk2 V c 1 t) (ix2 p q)
      = updated V c (((cfg2.win 6).blk t).view.emb (ix2 p q))
  rw [h6]
  unfold updated
  rw [update_apply]
  refine (pay2_entry (iblk2 V c 0 t) (iblk2 V c 2 t) (iblk2 V c 3 t) (iblk2 V c 4 t) (iblk2 V c 5 t) (iblk2 V c 1 t) p q).trans ?_
  show asMat (r := 50000) (s := 128) (V c main_arg0) (((cfg2.win 1).blk t).view.emb (ix2 p q))
      + mlpRow (fun k => V c main_v17 (((cfg2.win 0).blk t).view.emb (ix2 p k)))
          (fun y => V c main_arg8 (((cfg2.win 2).blk t).view.emb y))
          (fun k => V c main_v18 (((cfg2.win 3).blk t).view.emb (ix2 (0 : Fin 1) k)))
          (fun y => V c main_arg10 (((cfg2.win 4).blk t).view.emb y))
          (fun k => V c main_v19 (((cfg2.win 5).blk t).view.emb (ix2 (0 : Fin 1) k))) q = _
  simp only [h0, h1, h2, h3, h4, h5]

/-- An index of the result array lies in point t's block iff each coordinate is in the block's range. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v20).slice (win2_6.rect t)).set ↔ _
  rw [View.set_slice_whole, Rect.mem_set_unit]
  exact Iff.rfl

/-- Every index of the result array is in some point's block: row r is in block r / 5000. -/
theorem covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : (i 0).val / 5000 < cfg2.N := lt_of_lt_of_eq (by omega : (i 0).val / 5000 < 10) N_2.symm
  refine ⟨⟨(i 0).val / 5000, hN⟩, flush2_6 _, ?_⟩
  rw [mem_blk]
  obtain ⟨-, -, -, -, -, -, -, -, -, -, -, -, e60, e61⟩ := index_maps ⟨(i 0).val / 5000, hN⟩
  intro a
  match a with
  | ⟨0, _⟩ => show win2_6.index ⟨(i 0).val / 5000, hN⟩ (0 : Fin 2) * 5000 ≤ (i 0).val ∧ (i 0).val < win2_6.index ⟨(i 0).val / 5000, hN⟩ (0 : Fin 2) * 5000 + 5000; rw [e60]; show (i 0).val / 5000 * 5000 ≤ (i 0).val ∧ (i 0).val < (i 0).val / 5000 * 5000 + 5000; omega
  | ⟨1, _⟩ => show win2_6.index ⟨(i 0).val / 5000, hN⟩ (1 : Fin 2) * 128 ≤ (i 1).val ∧ (i 1).val < win2_6.index ⟨(i 0).val / 5000, hN⟩ (1 : Fin 2) * 128 + 128; rw [e61]; omega

/-- THE RESULT ARRAY after the region: `updated` of the arrays the region finds. -/
theorem array_eq (c : Dev nD) : (dat2 V c).arrAt 6 cfg2.N = updated V c :=
  (dat2 V c).arrAt_eq_of_cover 6 _ (fun t _ => flushed_eq V c t) covered

end Cert.KernelIdeal.OutStage

end
-- ==== Proof.Fold.lean ====
/-
  The result array, walked back to the arguments.

  The run leaves in the result buffer what the last region wrote: the node update of the arrays that region
  found.  Those are, through the host operations between the regions: the node array and the last two weight
  matrices as launched, the two bias vectors as 1 × 128 rows, and the scatter-add (by receiving node, onto
  zeros) of the message array — which the middle region wrote as the messages of the arrays IT found: the edge
  array and two weight matrices as launched, two bias rows, and the row gather (by sending node) of the first
  region's output, every node row times the first weights.  No host operation and no region writes an argument,
  so each argument is read back as launched.
-/
import proofs.«167656_j24953759989865_1_alg».proof.Proof.Gen.KernelIdeal.Frame
import proofs.«167656_j24953759989865_1_alg».proof.Proof.NodeStage
import proofs.«167656_j24953759989865_1_alg».proof.Proof.EdgeStage
import proofs.«167656_j24953759989865_1_alg».proof.Proof.OutStage
import Idealize.ShloMosaic.Lib.StableHlo.Run
import Idealize.ShloMosaic.Lib.ValueLayout

set_option maxRecDepth 16384

noncomputable section

namespace Cert.KernelIdeal.Fold

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The two host operations between the stages, as functions of the index array -/

/-- Row 1 of the index array (the sending node of each edge), negative entries shifted by the number of nodes, as an
    800000 × 1 column. -/
abbrev sendCol (e : (⟨S2x800000, .i32⟩ : BufTy).Contents (Elt Ideal)) : (⟨S800000x1, .i32⟩ : BufTy).Contents (Elt Ideal) :=
  broadcastInDim S800000x1 ![0] bcast_S800000_S800000x1_0
    (select (cmpi .slt (shapeCast _ (extractStridedSlice S1x800000 ![1, 0] e slices_S2x800000_S1x800000_1_0) shapeCasts_S1x800000_S800000)
        (broadcastInDim S800000 ![] bcast_S_S800000 (constantI S_ 32 0#32)))
      (addi (shapeCast _ (extractStridedSlice S1x800000 ![1, 0] e slices_S2x800000_S1x800000_1_0) shapeCasts_S1x800000_S800000)
        (broadcastInDim S800000 ![] bcast_S_S800000 (constantI S_ 32 50000#32)))
      (shapeCast _ (extractStridedSlice S1x800000 ![1, 0] e slices_S2x800000_S1x800000_1_0) shapeCasts_S1x800000_S800000))

/-- Row 0 of the index array (the receiving node of each edge) as an 800000 × 1 column. -/
abbrev recvCol (e : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![0, 0] e slices_S2x800000_S1x800000_0_0) shapeCasts_S1x800000_S800000)

/-- The rows of `X` at the sending nodes. -/
abbrev gatherRows (X : (⟨S50000x128, .f32⟩ : BufTy).Contents (Elt Ideal)) (e : (⟨S2x800000, .i32⟩ : BufTy).Contents (Elt Ideal)) :
    (⟨S800000x128, .f32⟩ : BufTy).Contents (Elt Ideal) :=
  Host.gather gather_S50000x128_S800000x1_S800000x128_1_0_n_n_0_1_1128 X (sendCol e)

/-- The rows of `U` summed at the receiving nodes, onto zeros. -/
abbrev scatterRows (U : (⟨S800000x128, .f32⟩ : BufTy).Contents (Elt Ideal)) (e : (⟨S2x800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32)) (recvCol e) U

/-! ## Buffers a host stretch does not write -/

local macro "keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first region and the first host stretch -/

theorem W1_arg2 (c : Dev nD) : W1 m ρ c (Proc.devRef .tc main_arg2) = m ((c : Thread nD τ).loc main_arg2) :=
  W1_of_ne m ρ c main_arg2 (by decide)
theorem W1_arg5 (c : Dev nD) : W1 m ρ c (Proc.devRef .tc main_arg5) = m ((c : Thread nD τ).loc main_arg5) :=
  W1_of_ne m ρ c main_arg5 (by decide)
theorem W1_arg7 (c : Dev nD) : W1 m ρ c (Proc.devRef .tc main_arg7) = m ((c : Thread nD τ).loc main_arg7) :=
  W1_of_ne m ρ c main_arg7 (by decide)

/-- The first region's output: every node row times the first weights. -/
theorem W1_nodes (c : Dev nD) :
    W1 m ρ c (Proc.devRef .tc main_v0)
      = linear (n := 50000) (m ((c : Thread nD τ).loc main_arg0)) (m ((c : Thread nD τ).loc main_arg3)) :=
  (W1_arr m ρ c 2).trans (NodeStage.array_eq (V0 m ρ) c)

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by keeps hostOps1
    _ = m ((c : Thread nD τ).loc main_arg1) := W1_of_ne m ρ c main_arg1 (by decide)
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by keeps hostOps1
    _ = m ((c : Thread nD τ).loc main_arg4) := W1_of_ne m ρ c main_arg4 (by decide)
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by keeps hostOps1
    _ = m ((c : Thread nD τ).loc main_arg6) := W1_of_ne m ρ c main_arg6 (by decide)

/-- The gathered node rows the middle region finds. -/
theorem W2_gathered (c : Dev nD) :
    W2 m ρ c (Proc.devRef .tc main_v9)
      = gatherRows (W1 m ρ c (Proc.devRef .tc main_v0)) (W1 m ρ c (Proc.devRef .tc main_arg2)) := by
  show StableHlo.after hostOps1 (W1 m ρ c) (Proc.devRef .tc main_v9) = _
  after_results
  rfl

/-- The first bias as the middle region finds it: a 1 × 128 row. -/
theorem W2_bias1 (c : Dev nD) :
    W2 m ρ c (Proc.devRef .tc main_v10) = shapeCast S1x128 (W1 m ρ c (Proc.devRef .tc main_arg5)) shapeCasts_S128_S1x128 := by
  show StableHlo.after hostOps1 (W1 m ρ c) (Proc.devRef .tc main_v10) = _
  after_results
  rfl

/-- The second bias as the middle region finds it: a 1 × 128 row. -/
theorem W2_bias2 (c : Dev nD) :
    W2 m ρ c (Proc.devRef .tc main_v11) = shapeCast S1x128 (W1 m ρ c (Proc.devRef .tc main_arg7)) shapeCasts_S128_S1x128 := by
  show StableHlo.after hostOps1 (W1 m ρ c) (Proc.devRef .tc main_v11) = _
  after_results
  rfl

/-- A bias vector recast as a 1 × 128 row reads, at (0, k), its entry k. -/
theorem bias_row (b : (⟨S128, .f32⟩ : BufTy).Contents (Elt Ideal)) (k : Fin 128) :
    shapeCast S1x128 b shapeCasts_S128_S1x128 (ix2 (0 : Fin 1) k) = b (ix1 k) :=
  shapeCast_a_1a_apply b shapeCasts_S128_S1x128 0 k

/-! ## After the middle region and the second host stretch -/

/-- The messages, over the launch memory. -/
abbrev messagesOf (c : Dev nD) : Mat 800000 128 :=
  message (n := 800000) (m ((c : Thread nD τ).loc main_arg1))
    (gatherRows (linear (n := 50000) (m ((c : Thread nD τ).loc main_arg0)) (m ((c : Thread nD τ).loc main_arg3)))
      (m ((c : Thread nD τ).loc main_arg2)))
    (m ((c : Thread nD τ).loc main_arg4)) (fun k => m ((c : Thread nD τ).loc main_arg5) (ix1 k))
    (m ((c : Thread nD τ).loc main_arg6)) (fun k => m ((c : Thread nD τ).loc main_arg7) (ix1 k))

/-- The middle region's output: the messages of the launch memory. -/
theorem W3_messages (c : Dev nD) : W3 m ρ c (Proc.devRef .tc main_v12) = messagesOf m c := by
  refine ((W3_arr m ρ c 6).trans (EdgeStage.array_eq (V2 m ρ) c)).trans ?_
  show message (n := 800000) (W2 m ρ c (Proc.devRef .tc main_arg1)) (W2 m ρ c (Proc.devRef .tc main_v9))
      (W2 m ρ c (Proc.devRef .tc main_arg4)) (fun k => W2 m ρ c (Proc.devRef .tc main_v10) (ix2 (0 : Fin 1) k))
      (W2 m ρ c (Proc.devRef .tc main_arg6)) (fun k => W2 m ρ c (Proc.devRef .tc main_v11) (ix2 (0 : Fin 1) k)) = _
  rw [W2_arg1, W2_arg4, W2_arg6, W2_gathered, W1_nodes, W1_arg2, W2_bias1, W2_bias2, W1_arg5, W1_arg7]
  simp only [bias_row (m ((c : Thread nD τ).loc main_arg5)), bias_row (m ((c : Thread nD τ).loc main_arg7))]

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by keeps hostOps1
    _ = m ((c : Thread nD τ).loc main_arg2) := W1_of_ne m ρ c main_arg2 (by decide)
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := by keeps hostOps1
    _ = m ((c : Thread nD τ).loc main_arg9) := W1_of_ne m ρ c main_arg9 (by decide)
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := by keeps hostOps1
    _ = m ((c : Thread nD τ).loc main_arg11) := W1_of_ne m ρ c main_arg11 (by decide)

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by keeps hostOps2
    _ = W2 m ρ c (Proc.devRef .tc main_arg0) := W3_of_ne m ρ c main_arg0 (by decide)
    _ = W1 m ρ c (Proc.devRef .tc main_arg0) := by keeps hostOps1
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := by keeps hostOps2
    _ = W2 m ρ c (Proc.devRef .tc main_arg8) := W3_of_ne m ρ c main_arg8 (by decide)
    _ = W1 m ρ c (Proc.devRef .tc main_arg8) := by keeps hostOps1
    _ = m ((c : Thread nD τ).loc main_arg8) := W1_of_ne m ρ c main_arg8 (by decide)
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := by keeps hostOps2
    _ = W2 m ρ c (Proc.devRef .tc main_arg10) := W3_of_ne m ρ c main_arg10 (by decide)
    _ = W1 m ρ c (Proc.devRef .tc main_arg10) := by keeps hostOps1
    _ = m ((c : Thread nD τ).loc main_arg10) := W1_of_ne m ρ c main_arg10 (by decide)

/-- The aggregated messages the last region finds. -/
theorem W4_aggregated (c : Dev nD) :
    W4 m ρ c (Proc.devRef .tc main_v17)
      = scatterRows (W3 m ρ c (Proc.devRef .tc main_v12)) (W3 m ρ c (Proc.devRef .tc main_arg2)) := by
  show StableHlo.after hostOps2 (W3 m ρ c) (Proc.devRef .tc main_v17) = _
  after_results
  rfl

theorem W4_bias3 (c : Dev nD) :
    W4 m ρ c (Proc.devRef .tc main_v18) = shapeCast S1x128 (W3 m ρ c (Proc.devRef .tc main_arg9)) shapeCasts_S128_S1x128 := by
  show StableHlo.after hostOps2 (W3 m ρ c) (Proc.devRef .tc main_v18) = _
  after_results
  rfl
theorem W4_bias4 (c : Dev nD) :
    W4 m ρ c (Proc.devRef .tc main_v19) = shapeCast S1x128 (W3 m ρ c (Proc.devRef .tc main_arg11)) shapeCasts_S128_S1x128 := by
  show StableHlo.after hostOps2 (W3 m ρ c) (Proc.devRef .tc main_v19) = _
  after_results
  rfl

/-! ## The result -/

/-- The layer's result, over the launch memory: the node update of the messages summed at the receiving nodes. -/
abbrev resultOf (c : Dev nD) : Mat 50000 128 :=
  update (n := 50000) (scatterRows (messagesOf m c) (m ((c : Thread nD τ).loc main_arg2)))
    (m ((c : Thread nD τ).loc main_arg0))
    (m ((c : Thread nD τ).loc main_arg8)) (fun k => m ((c : Thread nD τ).loc main_arg9) (ix1 k))
    (m ((c : Thread nD τ).loc main_arg10)) (fun k => m ((c : Thread nD τ).loc main_arg11) (ix1 k))

/-- THE RESULT BUFFER at the last segment boundary is the layer's result of the launch memory. -/
theorem result_eq (c : Dev nD) : W5 m ρ c (Proc.devRef .tc main_v20) = resultOf m c := by
  refine ((W5_arr m ρ c 6).trans (OutStage.array_eq (V4 m ρ) c)).trans ?_
  show update (n := 50000) (W4 m ρ c (Proc.devRef .tc main_v17)) (W4 m ρ c (Proc.devRef .tc main_arg0))
      (W4 m ρ c (Proc.devRef .tc main_arg8)) (fun k => W4 m ρ c (Proc.devRef .tc main_v18) (ix2 (0 : Fin 1) k))
      (W4 m ρ c (Proc.devRef .tc main_arg10)) (fun k => W4 m ρ c (Proc.devRef .tc main_v19) (ix2 (0 : Fin 1) k)) = _
  rw [W4_aggregated, W3_messages, W3_arg2, W4_arg0, W4_arg8, W4_arg10, W4_bias3, W4_bias4, W3_arg9, W3_arg11]
  simp only [bias_row (m ((c : Thread nD τ).loc main_arg9)), bias_row (m ((c : Thread nD τ).loc main_arg11))]

end Cert.KernelIdeal.Fold

end
-- ==== Proof.RefStages.lean ====
/-
  The reference, stage by stage.

  The reference applies the same three stages to whole arrays.  Read at entry (p, q): a product with a 128 × 128
  matrix is the dot product of row p with column q; a bias vector broadcast over the rows reads its entry q;
  the shifted softplus is the specification's (its self-comparison for inequality is never true on the
  extended reals, so the selection keeps its second branch); so each stage is the specification's whole-array
  function of that stage's inputs.  The row gather and the scatter-add between the stages are left as they
  are: the kernel's program applies the very same two operations, and nothing here opens them.
-/
import proofs.«167656_j24953759989865_1_alg».proof.Proof.Gen.ReferenceIdeal.Run
import proofs.«167656_j24953759989865_1_alg».proof.Proof.Gen.ReferenceIdeal.Read
import proofs.«167656_j24953759989865_1_alg».proof.Proof.Spec
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read Cert.Spec
open Idealize.ShloMosaic Idealize.ShloMosaic.ValueIdx
open scoped BigOperators

variable (x0 : (⟨S50000x128, .f32⟩ : BufTy).Contents (Elt Ideal)) (x1 : (⟨S800000x128, .f32⟩ : BufTy).Contents (Elt Ideal))
  (x2 : (⟨S2x800000, .i32⟩ : BufTy).Contents (Elt Ideal))
  (x3 x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-! ## Which entries a product and a broadcast bias read -/

theorem lidx_v0 (p : Fin 50000) (q k : Fin 128) : lidx_main_v0 (ix2 p q) k = ix2 p k :=
  funext fun a => Fin.ext (by match a with | ⟨0, _⟩ => rfl | ⟨1, _⟩ => rfl)
theorem ridx_v0 (p : Fin 50000) (q k : Fin 128) : ridx_main_v0 (ix2 p q) k = ix2 k q :=
  funext fun a => Fin.ext (by match a with | ⟨0, _⟩ => rfl | ⟨1, _⟩ => rfl)
theorem lidx_v1 (p : Fin 800000) (q k : Fin 128) : lidx_main_v1 (ix2 p q) k = ix2 p k :=
  funext fun a => Fin.ext (by match a with | ⟨0, _⟩ => rfl | ⟨1, _⟩ => rfl)
theorem ridx_v1 (p : Fin 800000) (q k : Fin 128) : ridx_main_v1 (ix2 p q) k = ix2 k q :=
  funext fun a => Fin.ext (by match a with | ⟨0, _⟩ => rfl | ⟨1, _⟩ => rfl)
theorem lidx_v8 (p : Fin 800000) (q k : Fin 128) : lidx_main_v8 (ix2 p q) k = ix2 p k :=
  funext fun a => Fin.ext (by match a with | ⟨0, _⟩ => rfl | ⟨1, _⟩ => rfl)
theorem ridx_v8 (p : Fin 800000) (q k : Fin 128) : ridx_main_v8 (ix2 p q) k = ix2 k q :=
  funext fun a => Fin.ext (by match a with | ⟨0, _⟩ => rfl | ⟨1, _⟩ => rfl)
theorem lidx_v27 (p : Fin 50000) (q k : Fin 128) : lidx_main_v27 (ix2 p q) k = ix2 p k :=
  funext fun a => Fin.ext (by match a with | ⟨0, _⟩ => rfl | ⟨1, _⟩ => rfl)
theorem ridx_v27 (p : Fin 50000) (q k : Fin 128) : ridx_main_v27 (ix2 p q) k = ix2 k q :=
  funext fun a => Fin.ext (by match a with | ⟨0, _⟩ => rfl | ⟨1, _⟩ => rfl)
theorem lidx_v34 (p : Fin 50000) (q k : Fin 128) : lidx_main_v34 (ix2 p q) k = ix2 p k :=
  funext fun a => Fin.ext (by match a with | ⟨0, _⟩ => rfl | ⟨1, _⟩ => rfl)
theorem ridx_v34 (p : Fin 50000) (q k : Fin 128) : ridx_main_v34 (ix2 p q) k = ix2 k q :=
  funext fun a => Fin.ext (by match a with | ⟨0, _⟩ => rfl | ⟨1, _⟩ => rfl)

theorem bias_v3 (p : Fin 800000) (q : Fin 128) : idx_main_v2 (idx_main_v3 (ix2 p q)) = ix1 q :=
  funext fun a => Fin.ext (by match a with | ⟨0, _⟩ => rfl)
theorem bias_v10 (p : Fin 800000) (q : Fin 128) : idx_main_v9 (idx_main_v10 (ix2 p q)) = ix1 q :=
  funext fun a => Fin.ext (by match a with | ⟨0, _⟩ => rfl)
theorem bias_v29 (p : Fin 50000) (q : Fin 128) : idx_main_v28 (idx_main_v29 (ix2 p q)) = ix1 q :=
  funext fun a => Fin.ext (by match a with | ⟨0, _⟩ => rfl)
theorem bias_v36 (p : Fin 50000) (q : Fin 128) : idx_main_v35 (idx_main_v36 (ix2 p q)) = ix1 q :=
  funext fun a => Fin.ext (by match a with | ⟨0, _⟩ => rfl)

/-- The shifted softplus as the reference spells it, at one value: the self-comparison is false, so the selection
    keeps `max y 0 + log1p (exp (-|y - 0|))`. -/
theorem ssp_host (y : EReal) :
    Scalar.select (Ideal.cmp .une (y - Ideal.ofBits .f32 0x00000000#32) (y - Ideal.ofBits .f32 0x00000000#32))
        (y + Ideal.ofBits .f32 0x00000000#32)
        (max y (Ideal.ofBits .f32 0x00000000#32)
          + Ideal.log1p (Ideal.exp (-(max (y - Ideal.ofBits .f32 0x00000000#32) (-(y - Ideal.ofBits .f32 0x00000000#32))))))
      - Ideal.ofBits .f32 0x3F317218#32
      = ssp y := by
  rw [cmp_ne_self .une (.inr rfl), select_zero]
  rfl

/-! ## The node transform -/

theorem nodes_eq : val_main_v0 (F := Ideal) x0 x3 = linear (n := 50000) x0 x3 := by
  funext i
  obtain ⟨p, q, rfl⟩ : ∃ (p : Fin 50000) (q : Fin 128), i = ix2 p q := ⟨i 0, i 1, eq_ix2 i⟩
  rw [val_main_v0_apply, linear_apply]
  simp only [lidx_v0, ridx_v0]
  rfl

/-! ## The edge filter and the message -/

/-- The filter's hidden layer at an entry: the shifted softplus of the edge row's first dense layer. -/
theorem hidden1_entry (p : Fin 800000) (k : Fin 128) :
    val_main_v7 (F := Ideal) x1 x4 x5 (ix2 p k) = ssp (rowDot (fun j => x1 (ix2 p j)) x4 k + x5 (ix1 k)) := by
  simp only [val_main_v7_apply, val_main_v5_apply, val_main_v6_apply, val_main_cst_apply, val_main_call0_v4_apply,
    val_main_call0_v6_apply, val_main_call0_v11_apply, val_main_call0_v1_apply, val_main_call0_v10_apply,
    val_main_call0_v9_apply, val_main_call0_v8_apply, val_main_call0_v7_apply, val_main_call0_v3_apply,
    val_main_call0_v0_apply, val_main_call0_v2_apply, val_main_call0_v5_apply, val_main_call0_cst_apply,
    val_main_v4_apply, val_main_v3_apply, val_main_v2_apply, val_main_v1_apply, lidx_v1, ridx_v1, bias_v3,
    Ideal.subf_def, Ideal.addf_def, Ideal.maximumf_def, Ideal.hostAbsf_def, Ideal.absf_def, Ideal.hostNegf_def,
    Ideal.negf_def, Ideal.hostUnary_exp_def, Ideal.hostUnary_log1p_def, Ideal.ofBits_def, Ideal.cmpf_def, ssp_host]
  rfl

/-- The filter at an entry: the two-layer row map of the edge's row. -/
theorem filter_entry (p : Fin 800000) (q : Fin 128) :
    val_main_v11 (F := Ideal) x1 x4 x5 x6 x7 (ix2 p q)
      = mlpRow (fun k => x1 (ix2 p k)) x4 (fun k => x5 (ix1 k)) x6 (fun k => x7 (ix1 k)) q := by
  simp only [val_main_v11_apply, val_main_v8_apply, val_main_v10_apply, val_main_v9_apply, lidx_v8, ridx_v8, bias_v10,
    hidden1_entry, Ideal.addf_def]
  rfl

/-- The messages: the gathered node rows times the filter, as one whole-array function. -/
theorem messages_eq :
    val_main_v21 (F := Ideal) x0 x1 x2 x3 x4 x5 x6 x7
      = message (n := 800000) x1 (val_main_v20 (F := Ideal) x0 x2 x3) x4 (fun k => x5 (ix1 k)) x6 (fun k => x7 (ix1 k)) := by
  funext i
  obtain ⟨p, q, rfl⟩ : ∃ (p : Fin 800000) (q : Fin 128), i = ix2 p q := ⟨i 0, i 1, eq_ix2 i⟩
  rw [val_main_v21_apply, message_apply, filter_entry]
  rfl

/-! ## The output stage

  The aggregated messages enter this stage as a whole array that nothing here opens: each lemma rewrites the
  stage's operations at an entry one at a time and then treats the aggregated array as an arbitrary array `A`. -/

/-- The output stage's first dense layer at an entry, over the aggregated messages (kept as they are). -/
theorem dense3_entry (p : Fin 50000) (k : Fin 128) :
    val_main_v30 (F := Ideal) x0 x1 x2 x3 x4 x5 x6 x7 x8 x9 (ix2 p k)
      = rowDot (fun j => val_main_v26 (F := Ideal) x0 x1 x2 x3 x4 x5 x6 x7 (ix2 p j)) x8 k + x9 (ix1 k) := by
  rw [val_main_v30_apply, val_main_v27_apply, val_main_v29_apply, val_main_v28_apply, bias_v29]
  generalize val_main_v26 (F := Ideal) x0 x1 x2 x3 x4 x5 x6 x7 = A
  simp only [lidx_v27, ridx_v27, Ideal.addf_def]
  rfl

/-- The output stage's hidden layer at an entry: the shifted softplus of the first dense layer. -/
theorem hidden2_entry (p : Fin 50000) (k : Fin 128) :
    val_main_v33 (F := Ideal) x0 x1 x2 x3 x4 x5 x6 x7 x8 x9 (ix2 p k)
      = ssp (rowDot (fun j => val_main_v26 (F := Ideal) x0 x1 x2 x3 x4 x5 x6 x7 (ix2 p j)) x8 k + x9 (ix1 k)) := by
  rw [val_main_v33_apply, val_main_v31_apply, val_main_v32_apply, val_main_cst_2_apply, val_main_call1_v4_apply,
    val_main_call1_v6_apply, val_main_call1_v11_apply, val_main_call1_v1_apply, val_main_call1_v10_apply,
    val_main_call1_v9_apply, val_main_call1_v8_apply, val_main_call1_v7_apply, val_main_call1_v3_apply,
    val_main_call1_v0_apply, val_main_call1_v2_apply, val_main_call1_v5_apply]
  repeat rw [val_main_call1_cst_apply]
  rw [dense3_entry]
  generalize val_main_v26 (F := Ideal) x0 x1 x2 x3 x4 x5 x6 x7 = A
  simp only [Ideal.subf_def, Ideal.addf_def, Ideal.maximumf_def, Ideal.hostAbsf_def, Ideal.absf_def, Ideal.hostNegf_def,
    Ideal.negf_def, Ideal.hostUnary_exp_def, Ideal.hostUnary_log1p_def, Ideal.ofBits_def, Ideal.cmpf_def, ssp_host]

/-- The output stage's two-layer map at an entry. -/
theorem out_entry (p : Fin 50000) (q : Fin 128) :
    val_main_v37 (F := Ideal) x0 x1 x2 x3 x4 x5 x6 x7 x8 x9 x10 x11 (ix2 p q)
      = mlpRow (fun k => val_main_v26 (F := Ideal) x0 x1 x2 x3 x4 x5 x6 x7 (ix2 p k)) x8 (fun k => x9 (ix1 k)) x10
          (fun k => x11 (ix1 k)) q := by
  rw [val_main_v37_apply, val_main_v34_apply, val_main_v36_apply, val_main_v35_apply, bias_v36]
  simp only [lidx_v34, ridx_v34, hidden2_entry]
  generalize val_main_v26 (F := Ideal) x0 x1 x2 x3 x4 x5 x6 x7 = A
  simp only [Ideal.addf_def]
  rfl

/-- The result: each node's own row plus the two-layer map of its aggregated row. -/
theorem update_eq :
    val_main_v38 (F := Ideal) x0 x1 x2 x3 x4 x5 x6 x7 x8 x9 x10 x11
      = update (n := 50000) (val_main_v26 (F := Ideal) x0 x1 x2 x3 x4 x5 x6 x7) x0 x8 (fun k => x9 (ix1 k)) x10
          (fun k => x11 (ix1 k)) := by
  funext i
  obtain ⟨p, q, rfl⟩ : ∃ (p : Fin 50000) (q : Fin 128), i = ix2 p q := ⟨i 0, i 1, eq_ix2 i⟩
  rw [val_main_v38_apply, update_apply, out_entry]
  generalize val_main_v26 (F := Ideal) x0 x1 x2 x3 x4 x5 x6 x7 = A
  rfl

end Cert.ReferenceIdeal.Stages

end
-- ==== Proof.Joint.lean ====
/-
  The two programs compute one function.

  Stage by stage the reference's arrays are the specification's functions of its inputs (the reference, read), and
  the kernel's result buffer is the same composition of the same functions over its launch memory (the fold, walked
  back).  Between the stages both programs apply the very same row gather (by sending node, after the same shift of
  negative indices) and the very same scatter-add onto zeros (by receiving node); they are compared here as whole
  operations and never opened.
-/
import proofs.«167656_j24953759989865_1_alg».proof.Proof.RefStages
import proofs.«167656_j24953759989865_1_alg».proof.Proof.Fold

noncomputable section

namespace Cert.Joint

open Cert.Spec Cert.ReferenceIdeal.Read Cert.ReferenceIdeal.Stages Cert.KernelIdeal.Fold
open Idealize.ShloMosaic Idealize.ShloMosaic.ValueIdx

variable (x0 : (⟨Cert.ReferenceIdeal.S50000x128, .f32⟩ : BufTy).Contents (Elt Ideal))
  (x1 : (⟨Cert.ReferenceIdeal.S800000x128, .f32⟩ : BufTy).Contents (Elt Ideal))
  (x2 : (⟨Cert.ReferenceIdeal.S2x800000, .i32⟩ : BufTy).Contents (Elt Ideal))
  (x3 x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128x128, .f32⟩ : BufTy).Contents (Elt Ideal))
  (x9 : (⟨Cert.ReferenceIdeal.S128, .f32⟩ : BufTy).Contents (Elt Ideal))
  (x10 : (⟨Cert.ReferenceIdeal.S128x128, .f32⟩ : BufTy).Contents (Elt Ideal))
  (x11 : (⟨Cert.ReferenceIdeal.S128, .f32⟩ : BufTy).Contents (Elt Ideal))

/-- The reference's row gather is the kernel program's: the same operation on the same index column. -/
theorem gathered_eq (X : (⟨Cert.ReferenceIdeal.S50000x128, .f32⟩ : BufTy).Contents (Elt Ideal)) :
    Host.gather Cert.ReferenceIdeal.gather_S50000x128_S800000x1_S800000x128_1_0_n_n_0_1_1128 X (val_main_v19 (F := Ideal) x2)
      = gatherRows X x2 := rfl

/-- The reference's scatter-add onto zeros is the kernel program's: the same operation on the same index column. -/
theorem aggregated_eq (U : (⟨Cert.ReferenceIdeal.S800000x128, .f32⟩ : BufTy).Contents (Elt Ideal)) :
    (Host.scatterAdd (F := Ideal) (φ := .f32) Cert.ReferenceIdeal.scatter_S50000x128_S800000x1_S800000x128_1_0_0_1 (val_main_v24 (F := Ideal))
        (val_main_v25 (F := Ideal) x2) U : (⟨Cert.ReferenceIdeal.S50000x128, .f32⟩ : BufTy).Contents (Elt Ideal))
      = scatterRows U x2 := rfl

/-- THE REFERENCE'S RESULT, as the composition the kernel's result buffer holds. -/
theorem reference_eq :
    val_main_v38 (F := Ideal) x0 x1 x2 x3 x4 x5 x6 x7 x8 x9 x10 x11
      = update (n := 50000)
          (scatterRows
            (message (n := 800000) x1 (gatherRows (linear (n := 50000) x0 x3) x2) x4 (fun k => x5 (ix1 k)) x6 (fun k => x7 (ix1 k)))
            x2)
          x0 x8 (fun k => x9 (ix1 k)) x10 (fun k => x11 (ix1 k)) := by
  have hg : val_main_v20 (F := Ideal) x0 x2 x3 = gatherRows (linear (n := 50000) x0 x3) x2 := by
    unfold val_main_v20
    rw [nodes_eq]
    exact gathered_eq x2 _
  have hagg : val_main_v26 (F := Ideal) x0 x1 x2 x3 x4 x5 x6 x7
      = scatterRows
          (message (n := 800000) x1 (gatherRows (linear (n := 50000) x0 x3) x2) x4 (fun k => x5 (ix1 k)) x6 (fun k => x7 (ix1 k)))
          x2 := by
    unfold val_main_v26
    rw [messages_eq, hg]
    exact aggregated_eq x2 _
  rw [update_eq, hagg]

end Cert.Joint

end
-- ==== Proof.lean ====
/-
  A message-passing layer on a graph of 50000 nodes and 800000 edges, in three tiled kernels against its plain
  reference.

  Both programs compute, over the extended reals,
      out = node + mlp₂ (Σ_{edges into the node} (node · Wn)[sender] * mlp₁ (edge)),
  where each mlp is dense · shifted softplus · dense on one row of 128.  The kernel program runs the node transform,
  the edge filter with its multiply, and the output layer with its residual as three kernels over blocks of 5000
  rows, with the row gather and the scatter-add done by the same host operations the reference uses.  Every stage
  acts on rows independently, so a block of a stage's result is the block of the whole-array result; a change of
  float format is the identity on the extended reals; and the two spellings of the shifted softplus agree
  (`0 - a = -a`, and no value differs from itself).  No law used needs a finite input.

  frames: the generated frame certificates, and the reference's generated run with its result dropped;
  preserves: the idealization rewrote nothing; algebraic: the kernel's run with its result buffer named, walked
  back to the launch memory, against the reference's run read stage by stage.
-/
import proofs.«167656_j24953759989865_1_alg».proof.Defs
import proofs.«167656_j24953759989865_1_alg».proof.Proof.Gen.Kernel
import proofs.«167656_j24953759989865_1_alg».proof.Proof.Gen.Kernel.Frame
import proofs.«167656_j24953759989865_1_alg».proof.Proof.Gen.KernelIdeal
import proofs.«167656_j24953759989865_1_alg».proof.Proof.Gen.KernelIdeal.Frame
import proofs.«167656_j24953759989865_1_alg».proof.Proof.Gen.ReferenceIdeal
import proofs.«167656_j24953759989865_1_alg».proof.Proof.Gen.ReferenceIdeal.Run
import proofs.«167656_j24953759989865_1_alg».proof.Proof.Gen.ReferenceIdeal.Read
import proofs.«167656_j24953759989865_1_alg».proof.Proof.Gen.Pre_finite_inputs
import proofs.«167656_j24953759989865_1_alg».proof.Proof.RunNamed
import proofs.«167656_j24953759989865_1_alg».proof.Proof.Fold
import proofs.«167656_j24953759989865_1_alg».proof.Proof.Joint
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both programs end with the layer's result of those arguments. -/
theorem algebraic : Cert.algebraic_KernelIdeal_ReferenceIdeal := by
  intro m ρ m' ρ' _ hagree
  refine ⟨fun c => Cert.KernelIdeal.Fold.resultOf m c, ?_, ?_⟩
  · exact (θ_run Cert.KernelIdeal.defs _ _).mono
      (fun r h c => ⟨(h c).1.trans (Cert.KernelIdeal.Fold.result_eq m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v38_eq, h0, h1, h2, h3, h4, h5, h6, h7, h8, h9, h10, h11]
    exact Cert.Joint.reference_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
